-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x768 : Shape := ⟨2, ![8192, 768]⟩
abbrev S768x128 : Shape := ⟨2, ![768, 128]⟩
abbrev S_ : Shape := ⟨0, ![]⟩

class Facts : Prop where
  bcast_S_S8192x768 : S_.BroadcastsInDim S8192x768 (![] : Fin 0 → Fin S8192x768.rank)
  reducesTo_S8192x768_S_d0_1 : S8192x768.ReducesTo [0, 1] S_
  h_S_ : 0 < S_.numel
  bcast_S_S768x128 : S_.BroadcastsInDim S768x128 (![] : Fin 0 → Fin S768x128.rank)
  reducesTo_S768x128_S_d0_1 : S768x128.ReducesTo [0, 1] S_

variable [Facts]

def fn {F : FTy → Type} [FloatOps F] (main_arg0 : FVec F S8192x768 .f32) (main_arg1 : FVec F S768x128 .f32) : IVec S_ 1 :=
  let main_v0 : FVec F S8192x768 .f32 := Host.absf main_arg0
  let main_cst : FVec F S_ .f32 := constant S_ .f32 0x7F800000#32
  let main_v1 : FVec F S8192x768 .f32 := broadcastInDim S8192x768 ![] bcast_S_S8192x768 main_cst
  let main_v2 : IVec S8192x768 1 := cmpf .olt main_v0 main_v1
  let main_c : IVec S_ 1 := constantI S_ 1 1#1
  let main_v3 : IVec S_ 1 := (fun x v => Host.reduce IntOp.andi x v reducesTo_S8192x768_S_d0_1 h_S_) main_v2 main_c
  let main_v4 : FVec F S768x128 .f32 := Host.absf main_arg1
  let main_cst_0 : FVec F S_ .f32 := constant S_ .f32 0x7F800000#32
  let main_v5 : FVec F S768x128 .f32 := broadcastInDim S768x128 ![] bcast_S_S768x128 main_cst_0
  let main_v6 : IVec S768x128 1 := cmpf .olt main_v4 main_v5
  let main_c_1 : IVec S_ 1 := constantI S_ 1 1#1
  let main_v7 : IVec S_ 1 := (fun x v => Host.reduce IntOp.andi x v reducesTo_S768x128_S_d0_1 h_S_) main_v6 main_c_1
  let main_v8 : IVec S_ 1 := andi main_v3 main_v7
  main_v8
-- ==== Kernel.lean ====
abbrev S8192x768 : Shape := ⟨2, ![8192, 768]⟩
abbrev S768x128 : Shape := ⟨2, ![768, 128]⟩
abbrev S8192x128 : Shape := ⟨2, ![8192, 128]⟩
abbrev S1024x768 : Shape := ⟨2, ![1024, 768]⟩
abbrev S1024x128 : Shape := ⟨2, ![1024, 128]⟩
abbrev S8192x8192 : Shape := ⟨2, ![8192, 8192]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 4
  | .vmem => 11
  | .smem => 0
  | _ => 0

abbrev bufTy : (tb : Table) → Fin (tcTables nBuf tb) → BufTy
  | .hbm, ⟨0, _⟩ => ⟨S8192x768, .f32⟩
  | .hbm, ⟨1, _⟩ => ⟨S768x128, .f32⟩
  | .hbm, ⟨2, _⟩ => ⟨S8192x128, .bf16⟩
  | .hbm, ⟨3, _⟩ => ⟨S8192x8192, .f32⟩
  | .local _ .vmem, ⟨0, _⟩ => ⟨S1024x768, .f32⟩
  | .local _ .vmem, ⟨1, _⟩ => ⟨S1024x768, .f32⟩
  | .local _ .vmem, ⟨2, _⟩ => ⟨S768x128, .f32⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .bf16⟩
  | .local _ .vmem, ⟨9, _⟩ => ⟨S1024x1024, .f32⟩
  | .local _ .vmem, ⟨10, _⟩ => ⟨S1024x1024, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S1024x768_S1024x768_0_0 : ∀ a, (![0, 0] : Fin 2 → Nat) a + S1024x768.size a ≤ S1024x768.size a
  h_S1024x768 : 0 < S1024x768.numel
  bitsLt_bf16_f32 : FTy.bits .bf16 < FTy.bits .f32
  inb_S768x128_S768x128_0_0 : ∀ a, (![0, 0] : Fin 2 → Nat) a + S768x128.size a ≤ S768x128.size a
  h_S768x128 : 0 < S768x128.numel
  inb_S1024x128_S1024x128_0_0 : ∀ a, (![0, 0] : Fin 2 → Nat) a + S1024x128.size a ≤ S1024x128.size a
  h_S1024x128 : 0 < S1024x128.numel
  packedbf16_S1024x128_S1024x128_0_0 : (Rect.unit (s := S1024x128) ![0, 0] S1024x128.size inb_S1024x128_S1024x128_0_0).PackedRows (EltTy.packing .bf16)
  shapeCasts_S1024x128_S1024x128 : S1024x128.ShapeCasts S1024x128
  reduces_S1024x128_S1024 : S1024x128.Reduces [1] S1024
  shapeCasts_S1024_S1024x1 : S1024.ShapeCasts S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x768_S768x128_S1024x128_1_0_0_1_n_n_wf : DotDims.WF S1024x768 S768x128 S1024x128 [1] [0] [0] [1] [] []
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S8192x768.size a
  hwx0_0 : ∀ i : grid0.Coords, EltTy.bits .f32 = 32 ∨ (Rect.block (s := S8192x768) S1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x128.size a ≤ S768x128.size a
  hwx0_1 : ∀ i : grid0.Coords, EltTy.bits .f32 = 32 ∨ (Rect.block (s := S768x128) S768x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .bf16 = 32 ∨ (Rect.block (s := S8192x128) S1024x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .bf16 = 32 ∨ (Rect.block (s := S8192x128) S1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S8192x128.size a
  hwx1_1 : ∀ i : grid1.Coords, EltTy.bits .bf16 = 32 ∨ (Rect.block (s := S8192x128) S1024x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x8192.size a
  hwx1_2 : ∀ i : grid1.Coords, EltTy.bits .f32 = 32 ∨ (Rect.block (s := S8192x8192) S1024x1024.size (cc1_transform_2 i) (hinb1_2 i)).WholeWords (EltTy.packing .f32)

variable [Facts₀]

def dot_S1024x768_S768x128_S1024x128_1_0_0_1_n_n : DotDims S1024x768 S768x128 S1024x128 where
  lhsContracting := [1]
  rhsContracting := [0]
  lhsNonContracting := [0]
  rhsNonContracting := [1]
  lhsBatch := []
  rhsBatch := []
  wf := dot_S1024x768_S768x128_S1024x128_1_0_0_1_n_n_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_arg0) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S768x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x768 : Shape := ⟨2, ![8192, 768]⟩
abbrev S768x128 : Shape := ⟨2, ![768, 128]⟩
abbrev S8192x128 : Shape := ⟨2, ![8192, 128]⟩
abbrev S_ : Shape := ⟨0, ![]⟩
abbrev S8192 : Shape := ⟨1, ![8192]⟩
abbrev S128x8192 : Shape := ⟨2, ![128, 8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 17
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S768x128, .f32⟩
  | .hbm, ⟨2, _⟩ => ⟨S8192x128, .f32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S128x8192, .f32⟩
  | .hbm, ⟨7, _⟩ => ⟨S8192x8192, .f32⟩
  | .hbm, ⟨8, _⟩ => ⟨S8192x1, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S8192x8192, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  transposes_S8192x128_S128x8192_1_0 : S8192x128.Transposes [1, 0] S128x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x768_S768x128_S8192x128_1_0_0_1_n_n_wf : DotDims.WF S8192x768 S768x128 S8192x128 [1] [0] [0] [1] [] []
  dot_S8192x128_S128x8192_S8192x8192_1_0_0_1_n_n_wf : DotDims.WF S8192x128 S128x8192 S8192x8192 [1] [0] [0] [1] [] []

variable [Facts₀]

def dot_S8192x768_S768x128_S8192x128_1_0_0_1_n_n : DotDims S8192x768 S768x128 S8192x128 where
  lhsContracting := [1]
  rhsContracting := [0]
  lhsNonContracting := [0]
  rhsNonContracting := [1]
  lhsBatch := []
  rhsBatch := []
  wf := dot_S8192x768_S768x128_S8192x128_1_0_0_1_n_n_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KBody0.lean ====
/-
  The first pallas_call (the projection), one grid point at a time, at any float instance.

  The grid has 8 points; point t stages rows 1024·t … 1024·t + 1023 of the position table (window 0), the whole
  projection matrix (window 1, the same block at every point) and writes back rows 1024·t … of the projected rows
  (window 2). The body loads both input blocks, forms the block product into a zero accumulator, and stores it over
  the whole output block; it also loads the output block first, a value it never uses. So after the body the output's
  staging buffer holds ONE piece: the payload of the two input blocks, covering the block. The region's proof data say
  exactly that, and the body obligation follows from the body's triple at every point alike.
-/
import proofs.«178167_j44040594653319_1_alg».proof.Proof.Gen.Kernel.Launch
import proofs.«178167_j44040594653319_1_alg».proof.Proof.Gen.Kernel.Skeleton
import proofs.«178167_j44040594653319_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the contents of the core's unscoped buffers when the region is entered: a parameter, fixed by the run
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The position block is in its staging buffer at every point (it is fetched at every point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The projection matrix is in its staging buffer at every point: fetched at the first, and left in place by the body,
    its block index never moving. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each the whole of its buffer -/

abbrev r0_pe : Rect S1024x768 := Rect.unit (s := S1024x768) ![0, 0] S1024x768.size inb_S1024x768_S1024x768_0_0
abbrev r0_w : Rect S768x128 := Rect.unit (s := S768x128) ![0, 0] S768x128.size inb_S768x128_S768x128_0_0
abbrev r0_t : Rect S1024x128 := Rect.unit (s := S1024x128) ![0, 0] S1024x128.size inb_S1024x128_S1024x128_0_0

/-! ## What the body leaves in the output window's buffer -/

/-- The output block after the body: its one store, the payload of the two loaded blocks, over the whole block. -/
def out0_2 (x0 : Vec F S1024x768 .f32) (x1 : Vec F S768x128 .f32) : Vec F S1024x128 .bf16 :=
  View.canon [⟨r0_t, k0_pay1 (View.ld x0 r0_pe) (View.ld x1 r0_w)⟩]

/-- The one store covers the block. -/
theorem cover0_2 (p0 : Vec F S1024x128 .bf16) (y : S1024x128.Idx) :
    ∃ pc ∈ ([⟨r0_t, p0⟩] : List (View.Piece (Elt F) S1024x128 .bf16)), y ∈ pc.1.set :=
  View.cover_of_tiled [⟨r0_t, p0⟩] S1024x128.size (by rfl) y

/-! ## The body's triple -/

set_option maxHeartbeats 1000000 in
/-- On whole staging memrefs, the inputs' at contents `x0`, `x1` and the output's at anything, the body runs to its
    continuation with the inputs as they were and the output at `out0_2 x0 x1`. -/
theorem sound_kernel0 (c : Dev nD) (E : Set ℕ) (i : grid0.Coords)
    (arg1 : Memref sig .tc .vmem S1024x768 .f32) (harg1 : arg1.IsWhole)
    (arg2 : Memref sig .tc .vmem S768x128 .f32) (harg2 : arg2.IsWhole)
    (arg3 : Memref sig .tc .vmem S1024x128 .bf16) (harg3 : arg3.IsWhole)
    (x0 : Vec F S1024x768 .f32) (x1 : Vec F S768x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- The arrays as the region finds them; after the body each input's buffer at its block and the output's at
    `out0_2` of the input blocks; the invariant holds the scoped buffers the region does not stage and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the triple applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KBody1.lean ====
/-
  The second pallas_call (the pairwise squared distances), one grid point at a time, at any float instance.

  The grid is 8 × 8; point (a, b) stages rows 1024·a … of the projected rows through window 0 and rows 1024·b … of
  the SAME array through window 1, and writes back the 1024 × 1024 block (a, b) of the distance matrix (window 2).
  The body loads the two row blocks, forms each row's squared norm, the block of inner products into a zero
  accumulator, and stores (norm + norm) − 2 · product over the whole output block; it loads the output block first, a
  value it never uses. After the body the output's staging buffer holds ONE piece covering it.

  Both input windows read one array, so the core holds that array for window 0 at the left half of the full share and
  for window 1 at the right half; the output's array is held whole.
-/
import proofs.«178167_j44040594653319_1_alg».proof.Proof.Gen.Kernel.Launch
import proofs.«178167_j44040594653319_1_alg».proof.Proof.Gen.Kernel.Skeleton
import proofs.«178167_j44040594653319_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the contents of the core's unscoped buffers when the region is entered: a parameter, fixed by the run
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left row block is in its staging buffer at every point: fetched when the row-block index moves, left in place
    by the body otherwise. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The right row block likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each the whole of its buffer -/

abbrev r1_rows : Rect S1024x128 := Rect.unit (s := S1024x128) ![0, 0] S1024x128.size inb_S1024x128_S1024x128_0_0
abbrev r1_d : Rect S1024x1024 := Rect.unit (s := S1024x1024) ![0, 0] S1024x1024.size inb_S1024x1024_S1024x1024_0_0

/-! ## What the body leaves in the output window's buffer -/

/-- The output block after the body: its one store, the payload of the two loaded row blocks, over the whole block. -/
def out1_2 (x0 : Vec F S1024x128 .bf16) (x1 : Vec F S1024x128 .bf16) : Vec F S1024x1024 .f32 :=
  View.canon [⟨r1_d, k1_pay1 (View.ld x0 r1_rows) (View.ld x1 r1_rows)⟩]

/-- The one store covers the block. -/
theorem cover1_2 (p0 : Vec F S1024x1024 .f32) (y : S1024x1024.Idx) :
    ∃ pc ∈ ([⟨r1_d, p0⟩] : List (View.Piece (Elt F) S1024x1024 .f32)), y ∈ pc.1.set :=
  View.cover_of_tiled [⟨r1_d, p0⟩] S1024x1024.size (by rfl) y

/-! ## The body's triple -/

set_option maxHeartbeats 1000000 in
/-- On whole staging memrefs, the inputs' at contents `x0`, `x1` and the output's at anything, the body runs to its
    continuation with the inputs as they were and the output at `out1_2 x0 x1`. -/
theorem sound_kernel1 (c : Dev nD) (E : Set ℕ) (i : grid1.Coords)
    (arg2 : Memref sig .tc .vmem S1024x128 .bf16) (harg2 : arg2.IsWhole)
    (arg3 : Memref sig .tc .vmem S1024x128 .bf16) (harg3 : arg3.IsWhole)
    (arg4 : Memref sig .tc .vmem S1024x1024 .f32) (harg4 : arg4.IsWhole)
    (x0 : Vec F S1024x128 .bf16) (x1 : Vec F S1024x128 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out1_2 x0 x1)) -∗ K ⟨⟩))
      ⊢ wp frame (wpE (defs₀ (F := F)) Variants.none c none) E (cc1__pairwise_kernel i arg2 harg2 arg3 harg3 arg4 harg4) K := by
  simp only [cc1__pairwise_kernel_eq_skeleton]; unfold cc1__pairwise_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The region's proof data -/

/-- The arrays as the region finds them; after the body each input's buffer at its block and the output's at
    `out1_2` of the input blocks; the invariant holds the scoped buffers the region does not stage and the generator
    register, untouched; nothing owed; the shared input array at half the full share for each of its two windows. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem share1_0 (c : Dev nD) : (dat1 V c).share 0 = fullShare.left := rfl
theorem share1_1 (c : Dev nD) : (dat1 V c).share 1 = fullShare.right := rfl
theorem share1_2 (c : Dev nD) : (dat1 V c).share 2 = fullShare := rfl

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the triple applies; the invariant and what the core
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KShare.lean ====
/-
  The second pallas_call reads ONE array (the projected rows) through two input windows. At its entry the core's hold on
  that array, whole at the full share, is split into the left and the right half of the share, one per window; at its
  exit neither window has changed the array, so the two halves hold the same contents and join to the full share again.
  The output's array is held whole throughout and ends at what the write-backs left.
-/
import proofs.«178167_j44040594653319_1_alg».proof.Proof.KBody1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The buffers behind the second call's windows are two: the projected rows and the distance matrix. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v0) ↦{fullShare} V main_v0) ∗ (((c : Thread nD τ).loc main_v1) ↦{fullShare} V main_v1)) := by
  unfold Pipeline.arrBufs
  exact bigSep_eq_bigSepL_of_eq [main_v0, main_v1] (by decide) (by decide) _

/-- The core's unscoped buffers are those two and the rest. -/
theorem unscoped1_split (c : Dev nD) (V : (b : Ref sig .tc) → Buf (Elt F) ((c : Thread nD τ).loc b)) :
    (unscopedBufs c V : sProp 𝕄)
      = iprop((Pipeline.arrBufs (Ix := Unit) (Name := ℕ) (U := UR sig nD τ) (Lvl := ℕ) spec1 c V : sProp 𝕄)
          ∗ Pipeline.unscopedRest (Ix := Unit) (Name := ℕ) (U := UR sig nD τ) (Lvl := ℕ) spec1 c V) :=
  Pipeline.unscopedBufs_split₀ (cfgs) 1 winFacts₀1.arr_unscoped c V

/-- ENTRY. The unscoped buffers at `V` give the region's arrays at their entry contents, the shared array's full share
    split between its two windows, beside the unscoped rest. -/
theorem split1 (c : Dev nD) (V : (c : Dev nD) → (b : Ref sig .tc) → Buf (Elt F) ((c : Thread nD τ).loc b)) :
    (unscopedBufs c (V c) : sProp 𝕄)
      ⊢ iprop((dat1 V c).arrays ((dat1 V c).arrAt · 0)
          ∗ Pipeline.unscopedRest (Ix := Unit) (Name := ℕ) (U := UR sig nD τ) (Lvl := ℕ) spec1 c (V c)) := by
  rw [unscoped1_split c (V c), arrBufs1_eq c (V c)]
  unfold Dat.arrays
  rw [bigSep_W1]
  have hs : ((((c : Thread nD τ).loc main_v0) ↦{fullShare} V c main_v0) : sProp 𝕄)
      ⊢ iprop((((c : Thread nD τ).loc main_v0) ↦{fullShare.left} V c main_v0) ∗ (((c : Thread nD τ).loc main_v0) ↦{fullShare.right} V c main_v0)) :=
    (pointsTo_share (PosShare.mem_left_op_right fullShare)).1
  iintro ⟨⟨H0, H1⟩, Hrest⟩
  ihave H := hs $$ H0
  icases H with ⟨Hl, Hr⟩
  isplitr [Hrest]
  swap; · iexact Hrest
  isplitl [Hl]
  · rw [(arr_whole1 0).set_eq_univ]; iexact Hl
  isplitl [Hr]
  · rw [(arr_whole1 1).set_eq_univ]; iexact Hr
  rw [(arr_whole1 2).set_eq_univ]; iexact H1

/-- EXIT. The region's arrays at their final contents — the shared input array unchanged under both halves, the
    output at what the write-backs left — and the unscoped rest are the unscoped buffers at any `V'` that has the
    output there and agrees with `V` elsewhere. -/
theorem join1 (c : Dev nD) (V : (c : Dev nD) → (b : Ref sig .tc) → Buf (Elt F) ((c : Thread nD τ).loc b))
    (V' : (b : Ref sig .tc) → Buf (Elt F) ((c : Thread nD τ).loc b))
    (h0 : V' main_v0 = V c main_v0) (h1 : V' main_v1 = (dat1 V c).arrAt 2 cfg1.N)
    (hrest : ∀ b, b ∉ Finset.univ.image (Pipeline.arrRef spec1) → V' b = V c b) :
    iprop((dat1 V c).arrays ((dat1 V c).arrAt · cfg1.N)
        ∗ Pipeline.unscopedRest (Ix := Unit) (Name := ℕ) (U := UR sig nD τ) (Lvl := ℕ) spec1 c (V c))
      ⊢ (unscopedBufs c V' : sProp 𝕄) := by
  rw [unscoped1_split c V', arrBufs1_eq c V', h0, h1]
  have e0 : (dat1 V c).arrAt 0 cfg1.N = V c main_v0 := ((dat1 V c).arrAt_in 0 rfl _).trans (A_eq1 V c 0)
  have e1 : (dat1 V c).arrAt 1 cfg1.N = V c main_v0 := ((dat1 V c).arrAt_in 1 rfl _).trans (A_eq1 V c 1)
  unfold Dat.arrays
  rw [bigSep_W1]
  beta_reduce
  rw [e0, e1]
  have hj : iprop((((c : Thread nD τ).loc main_v0) ↦{fullShare.left} V c main_v0) ∗ (((c : Thread nD τ).loc main_v0) ↦{fullShare.right} V c main_v0))
      ⊢ ((((c : Thread nD τ).loc main_v0) ↦{fullShare} V c main_v0) : sProp 𝕄) :=
    (pointsTo_share (PosShare.mem_left_op_right fullShare)).2
  iintro ⟨⟨Hl, Hr, H1⟩, Hrest⟩
  isplitr [Hrest]
  swap
  · unfold Pipeline.unscopedRest
    iapply (Entails.of_eq (bigSep_congr fun b hb => by rw [hrest b (Finset.mem_sdiff.mp hb).2]))
    iexact Hrest
  isplitr [H1]
  swap; · rw [(arr_whole1 2).set_eq_univ]; iexact H1
  iapply hj
  isplitl [Hl]
  · rw [(arr_whole1 0).set_eq_univ]; iexact Hl
  rw [(arr_whole1 1).set_eq_univ]; iexact Hr

end Cert.Kernel.Hand

end
-- ==== Proof.KRun.lean ====
/-
  The whole run of @main: the projection call, then the pairwise-distance call, on every core, at any float instance.

  Between the two calls the core's unscoped buffers hold: at launch the memory `m`; after the first call the same with
  the projected rows' array at what the first call's write-backs left; after the second call that with the distance
  matrix's array at what the second call's write-backs left. Each call is a region of @main entered from "every
  unscoped buffer at these contents, the generator register at some state, nothing owed" and left in the next such
  state. The first call's arrays are three distinct buffers, each held whole. The second call reads the projected rows
  through two windows: the entry splits that buffer's share in two halves and the exit joins them.

  The run's post names the distance matrix's final contents and says both argument arrays end as launched: no call
  writes an argument (each reads them through input windows or not at all).
-/
import proofs.«178167_j44040594653319_1_alg».proof.Proof.KBody0
import proofs.«178167_j44040594653319_1_alg».proof.Proof.KShare

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev B0 : Dev nD → Valuation τ sig (Elt F) := fun c b => m (c, b)
/-- The same read at the TensorCore's references: what the first call's proof data take. -/
abbrev Vr0 : (c : Dev nD) → (b : Ref sig .tc) → Buf (Elt F) ((c : Thread nD τ).loc b) := fun c b => B0 m c b

/-- After the first call: its arrays at what the pipeline leaves, every other buffer as launched. -/
def B1 (c : Dev nD) : Valuation τ sig (Elt F) :=
  Pipeline.withArrays spec0 c (B0 m c) fun w => (dat0 (Vr0 m) c).arrAt w cfg0.N
theorem B1_arr (c : Dev nD) (w : Fin cfg0.W) :
    B1 m c (Proc.devRef .tc (Pipeline.arrRef spec0 w)) = (dat0 (Vr0 m) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m c (Proc.devRef .tc b) = B0 m c (Proc.devRef .tc b) := by
  unfold B1; exact Pipeline.withArrays_of_ne spec0 c _ _ b hb
/-- The same read at the TensorCore's references: what the second call's proof data take. -/
abbrev Vr1 : (c : Dev nD) → (b : Ref sig .tc) → Buf (Elt F) ((c : Thread nD τ).loc b) := fun c b => B1 m c b
theorem hF0 (c : Dev nD) (w : Fin cfg0.W) : (dat0 (Vr0 m) c).arrAt w cfg0.N = Vr1 m c (Pipeline.arrRef spec0 w) :=
  (B1_arr m c w).symm
theorem hrest0 (c : Dev nD) : ∀ b, b ∉ Finset.univ.image (Pipeline.arrRef spec0) → Vr1 m c b = Vr0 m c b :=
  fun b hb => B1_of_ne m c b fun w e => hb (Finset.mem_image.mpr ⟨w, Finset.mem_univ _, e⟩)

/-- The projected rows as the first call leaves them. -/
def projRows (c : Dev nD) : Buf (Elt F) ((c : Thread nD τ).loc main_v0) := (dat0 (Vr0 m) c).arrAt 2 cfg0.N
theorem Vr1_main_v0 (c : Dev nD) : Vr1 m c main_v0 = projRows m c := B1_arr m c 2

/-- The distance matrix as the second call leaves it. -/
def distMat (c : Dev nD) : Buf (Elt F) ((c : Thread nD τ).loc main_v1) := (dat1 (Vr1 m) c).arrAt 2 cfg1.N

/-- After the second call: the distance matrix's array at what the pipeline leaves, every other buffer as before. -/
def B2 (c : Dev nD) : Valuation τ sig (Elt F) := Function.update (B1 m c) main_v1 (distMat m c)
abbrev Vr2 : (c : Dev nD) → (b : Ref sig .tc) → Buf (Elt F) ((c : Thread nD τ).loc b) := fun c b => B2 m c b
theorem B2_main_v1 (c : Dev nD) : B2 m c (Proc.devRef .tc main_v1) = distMat m c := by
  unfold B2; exact Function.update_self ..
theorem B2_of_ne (c : Dev nD) (b : Ref sig .tc) (hb : b ≠ main_v1) : B2 m c (Proc.devRef .tc b) = B1 m c (Proc.devRef .tc b) := by
  unfold B2
  exact Function.update_of_ne (StableHlo.devRef_ne_of_ne hb : (Proc.devRef .tc b : DevRef τ sig) ≠ Proc.devRef .tc main_v1) _ _

/-- The arguments end as launched: the second call does not hold them among its arrays, the first reads them through
    input windows. -/
theorem B2_main_arg0 (c : Dev nD) : B2 m c (Proc.devRef .tc main_arg0) = m ((c : Thread nD τ).loc main_arg0) :=
  calc B2 m c (Proc.devRef .tc main_arg0)
    _ = B1 m c (Proc.devRef .tc main_arg0) := B2_of_ne m c main_arg0 (by decide)
    _ = B0 m c (Proc.devRef .tc main_arg0) := (B1_arr m c 0).trans (((dat0 (Vr0 m) c).arrAt_in 0 rfl _).trans (A_eq0 (Vr0 m) c 0))
    _ = m ((c : Thread nD τ).loc main_arg0) := rfl
theorem B2_main_arg1 (c : Dev nD) : B2 m c (Proc.devRef .tc main_arg1) = m ((c : Thread nD τ).loc main_arg1) :=
  calc B2 m c (Proc.devRef .tc main_arg1)
    _ = B1 m c (Proc.devRef .tc main_arg1) := B2_of_ne m c main_arg1 (by decide)
    _ = B0 m c (Proc.devRef .tc main_arg1) := (B1_arr m c 1).trans (((dat0 (Vr0 m) c).arrAt_in 1 rfl _).trans (A_eq0 (Vr0 m) c 1))
    _ = m ((c : Thread nD τ).loc main_arg1) := rfl

/-! ## The proof data family and the thread state -/

/-- No call has a prefetched table. -/
abbrev adm : (p : Fin 2) → (pcfgs (F := F) p).Adm := fun p => (cfgs p).toPCfg_adm
/-- Each call's proof data at its entry contents. -/
def pdats : (p : Fin 2) → (c : Dev nD) → Dat τ (Elt F) Unit ℕ (UR sig nD τ) ℕ (Pipeline.pin (pcfgs (F := F)) adm p) c
  | ⟨0, _⟩ => fun c => dat0 (Vr0 m) c
  | ⟨1, _⟩ => fun c => dat1 (Vr1 m) c
abbrev 𝒱₀ : Variants := Variants.none
/-- No core owes another anything. -/
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
/-- The last thread state without the debt. -/
abbrev Tₙ (c : Dev nD) : sProp 𝕄 := iprop(StableHlo.held (c : Thread nD τ) (Pipeline.ucRefs τ sig) (B2 m c) ∗ ∃ r, prngReg c r)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The calls as regions of @main -/

set_option backward.isDefEq.respectTransparency.types false in
/-- The projection call: entered from every unscoped buffer at the launch contents, left at `B1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr0 m) c).loose
  hwaits := Pipeline.hwaits_of_owed_zero _ _ _ _ L lv 0 fun _ _ => rfl
  pre c := iprop(StableHlo.held (c : Thread nD τ) (Pipeline.ucRefs τ sig) (B0 m c) ∗ R c)
  post c := iprop(StableHlo.held (c : Thread nD τ) (Pipeline.ucRefs τ sig) (B1 m c) ∗ R c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr0 m c) (Vr1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pairwise-distance call: entered from every unscoped buffer at `B1`, left at `B2`; the shared input array's
    share split at the entry and joined at the exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (Vr1 m) c).loose
  hwaits := Pipeline.hwaits_of_owed_zero _ _ _ _ L lv 1 fun _ _ => rfl
  pre c := iprop(StableHlo.held (c : Thread nD τ) (Pipeline.ucRefs τ sig) (B1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vr1 m c)
  hentry c := by
    rw [Pipeline.ownSems0_none]
    have hsplit := split1 c (Vr1 m)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := join1 c (Vr1 m) (Vr2 m c) (B2_of_ne m c main_v0 (by decide)) (B2_main_v1 m c)
      (fun b hb => B2_of_ne m c b fun e => hb (Finset.mem_image.mpr ⟨2, Finset.mem_univ _, e.symm⟩))
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

/-- @main's two items in order. -/
abbrev segs : List (Pipeline.Seg (pcfgs (F := F)) adm (pdats m) () defs₀ 𝒱₀ L lv) :=
  [ .region (reg0 m), .region (reg1 m) ]
/-- @main IS the run of the segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting; the
    distance matrix's array ends at `distMat` and both argument arrays end as launched. -/
theorem run_main : θ_run defs (onTc (τ := τ) (main (F := F))) ⟨m, fun _ => 0, ρ⟩ (fun r => ∀ c : Dev nD,
      r.2.mem ((c.tc : Thread nD τ).loc main_v1) = distMat m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B2 m c b)
    (hfin := fun c s' => by
      iintro ⟨⟨Hh, -⟩, HSI⟩
      unfold StableHlo.held
      imodintro
      iapply (pointsTo_read_all (Pipeline.ucRefs τ sig) (fun b => (((c : Thread nD τ)).1, b)) (B2 m c) s')
      isplitl [Hh] <;> iassumption)
    (hQ := fun s h c =>
      ⟨(h c _ (mem_uc main_v1 (by decide))).trans (B2_main_v1 m c),
       (h c _ (mem_uc main_arg0 (by decide))).trans (B2_main_arg0 m c),
       (h c _ (mem_uc main_arg1 (by decide))).trans (B2_main_arg1 m c)⟩)

end Cert.Kernel.Hand

end
-- ==== Proof.KiBody0.lean ====
/-
  The first pallas_call (the projection), one grid point at a time, at any float instance.

  The grid has 8 points; point t stages rows 1024·t … 1024·t + 1023 of the position table (window 0), the whole
  projection matrix (window 1, the same block at every point) and writes back rows 1024·t … of the projected rows
  (window 2). The body loads both input blocks, forms the block product into a zero accumulator, and stores it over
  the whole output block; it also loads the output block first, a value it never uses. So after the body the output's
  staging buffer holds ONE piece: the payload of the two input blocks, covering the block. The region's proof data say
  exactly that, and the body obligation follows from the body's triple at every point alike.
-/
import proofs.«178167_j44040594653319_1_alg».proof.Proof.Gen.KernelIdeal.Launch
import proofs.«178167_j44040594653319_1_alg».proof.Proof.Gen.KernelIdeal.Skeleton
import proofs.«178167_j44040594653319_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the contents of the core's unscoped buffers when the region is entered: a parameter, fixed by the run
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The position block is in its staging buffer at every point (it is fetched at every point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The projection matrix is in its staging buffer at every point: fetched at the first, and left in place by the body,
    its block index never moving. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each the whole of its buffer -/

abbrev r0_pe : Rect S1024x768 := Rect.unit (s := S1024x768) ![0, 0] S1024x768.size inb_S1024x768_S1024x768_0_0
abbrev r0_w : Rect S768x128 := Rect.unit (s := S768x128) ![0, 0] S768x128.size inb_S768x128_S768x128_0_0
abbrev r0_t : Rect S1024x128 := Rect.unit (s := S1024x128) ![0, 0] S1024x128.size inb_S1024x128_S1024x128_0_0

/-! ## What the body leaves in the output window's buffer -/

/-- The output block after the body: its one store, the payload of the two loaded blocks, over the whole block. -/
def out0_2 (x0 : Vec F S1024x768 .f32) (x1 : Vec F S768x128 .f32) : Vec F S1024x128 .bf16 :=
  View.canon [⟨r0_t, k0_pay1 (View.ld x0 r0_pe) (View.ld x1 r0_w)⟩]

/-- The one store covers the block. -/
theorem cover0_2 (p0 : Vec F S1024x128 .bf16) (y : S1024x128.Idx) :
    ∃ pc ∈ ([⟨r0_t, p0⟩] : List (View.Piece (Elt F) S1024x128 .bf16)), y ∈ pc.1.set :=
  View.cover_of_tiled [⟨r0_t, p0⟩] S1024x128.size (by rfl) y

/-! ## The body's triple -/

set_option maxHeartbeats 1000000 in
/-- On whole staging memrefs, the inputs' at contents `x0`, `x1` and the output's at anything, the body runs to its
    continuation with the inputs as they were and the output at `out0_2 x0 x1`. -/
theorem sound_kernel0 (c : Dev nD) (E : Set ℕ) (i : grid0.Coords)
    (arg1 : Memref sig .tc .vmem S1024x768 .f32) (harg1 : arg1.IsWhole)
    (arg2 : Memref sig .tc .vmem S768x128 .f32) (harg2 : arg2.IsWhole)
    (arg3 : Memref sig .tc .vmem S1024x128 .bf16) (harg3 : arg3.IsWhole)
    (x0 : Vec F S1024x768 .f32) (x1 : Vec F S768x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- The arrays as the region finds them; after the body each input's buffer at its block and the output's at
    `out0_2` of the input blocks; the invariant holds the scoped buffers the region does not stage and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the triple applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KiBody1.lean ====
/-
  The second pallas_call (the pairwise squared distances), one grid point at a time, at any float instance.

  The grid is 8 × 8; point (a, b) stages rows 1024·a … of the projected rows through window 0 and rows 1024·b … of
  the SAME array through window 1, and writes back the 1024 × 1024 block (a, b) of the distance matrix (window 2).
  The body loads the two row blocks, forms each row's squared norm, the block of inner products into a zero
  accumulator, and stores (norm + norm) − 2 · product over the whole output block; it loads the output block first, a
  value it never uses. After the body the output's staging buffer holds ONE piece covering it.

  Both input windows read one array, so the core holds that array for window 0 at the left half of the full share and
  for window 1 at the right half; the output's array is held whole.
-/
import proofs.«178167_j44040594653319_1_alg».proof.Proof.Gen.KernelIdeal.Launch
import proofs.«178167_j44040594653319_1_alg».proof.Proof.Gen.KernelIdeal.Skeleton
import proofs.«178167_j44040594653319_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the contents of the core's unscoped buffers when the region is entered: a parameter, fixed by the run
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left row block is in its staging buffer at every point: fetched when the row-block index moves, left in place
    by the body otherwise. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The right row block likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each the whole of its buffer -/

abbrev r1_rows : Rect S1024x128 := Rect.unit (s := S1024x128) ![0, 0] S1024x128.size inb_S1024x128_S1024x128_0_0
abbrev r1_d : Rect S1024x1024 := Rect.unit (s := S1024x1024) ![0, 0] S1024x1024.size inb_S1024x1024_S1024x1024_0_0

/-! ## What the body leaves in the output window's buffer -/

/-- The output block after the body: its one store, the payload of the two loaded row blocks, over the whole block. -/
def out1_2 (x0 : Vec F S1024x128 .bf16) (x1 : Vec F S1024x128 .bf16) : Vec F S1024x1024 .f32 :=
  View.canon [⟨r1_d, k1_pay1 (View.ld x0 r1_rows) (View.ld x1 r1_rows)⟩]

/-- The one store covers the block. -/
theorem cover1_2 (p0 : Vec F S1024x1024 .f32) (y : S1024x1024.Idx) :
    ∃ pc ∈ ([⟨r1_d, p0⟩] : List (View.Piece (Elt F) S1024x1024 .f32)), y ∈ pc.1.set :=
  View.cover_of_tiled [⟨r1_d, p0⟩] S1024x1024.size (by rfl) y

/-! ## The body's triple -/

set_option maxHeartbeats 1000000 in
/-- On whole staging memrefs, the inputs' at contents `x0`, `x1` and the output's at anything, the body runs to its
    continuation with the inputs as they were and the output at `out1_2 x0 x1`. -/
theorem sound_kernel1 (c : Dev nD) (E : Set ℕ) (i : grid1.Coords)
    (arg2 : Memref sig .tc .vmem S1024x128 .bf16) (harg2 : arg2.IsWhole)
    (arg3 : Memref sig .tc .vmem S1024x128 .bf16) (harg3 : arg3.IsWhole)
    (arg4 : Memref sig .tc .vmem S1024x1024 .f32) (harg4 : arg4.IsWhole)
    (x0 : Vec F S1024x128 .bf16) (x1 : Vec F S1024x128 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out1_2 x0 x1)) -∗ K ⟨⟩))
      ⊢ wp frame (wpE (defs₀ (F := F)) Variants.none c none) E (cc1__pairwise_kernel i arg2 harg2 arg3 harg3 arg4 harg4) K := by
  simp only [cc1__pairwise_kernel_eq_skeleton]; unfold cc1__pairwise_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The region's proof data -/

/-- The arrays as the region finds them; after the body each input's buffer at its block and the output's at
    `out1_2` of the input blocks; the invariant holds the scoped buffers the region does not stage and the generator
    register, untouched; nothing owed; the shared input array at half the full share for each of its two windows. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem share1_0 (c : Dev nD) : (dat1 V c).share 0 = fullShare.left := rfl
theorem share1_1 (c : Dev nD) : (dat1 V c).share 1 = fullShare.right := rfl
theorem share1_2 (c : Dev nD) : (dat1 V c).share 2 = fullShare := rfl

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the triple applies; the invariant and what the core
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KiShare.lean ====
/-
  The second pallas_call reads ONE array (the projected rows) through two input windows. At its entry the core's hold on
  that array, whole at the full share, is split into the left and the right half of the share, one per window; at its
  exit neither window has changed the array, so the two halves hold the same contents and join to the full share again.
  The output's array is held whole throughout and ends at what the write-backs left.
-/
import proofs.«178167_j44040594653319_1_alg».proof.Proof.KiBody1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The buffers behind the second call's windows are two: the projected rows and the distance matrix. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v0) ↦{fullShare} V main_v0) ∗ (((c : Thread nD τ).loc main_v1) ↦{fullShare} V main_v1)) := by
  unfold Pipeline.arrBufs
  exact bigSep_eq_bigSepL_of_eq [main_v0, main_v1] (by decide) (by decide) _

/-- The core's unscoped buffers are those two and the rest. -/
theorem unscoped1_split (c : Dev nD) (V : (b : Ref sig .tc) → Buf (Elt F) ((c : Thread nD τ).loc b)) :
    (unscopedBufs c V : sProp 𝕄)
      = iprop((Pipeline.arrBufs (Ix := Unit) (Name := ℕ) (U := UR sig nD τ) (Lvl := ℕ) spec1 c V : sProp 𝕄)
          ∗ Pipeline.unscopedRest (Ix := Unit) (Name := ℕ) (U := UR sig nD τ) (Lvl := ℕ) spec1 c V) :=
  Pipeline.unscopedBufs_split₀ (cfgs) 1 winFacts₀1.arr_unscoped c V

/-- ENTRY. The unscoped buffers at `V` give the region's arrays at their entry contents, the shared array's full share
    split between its two windows, beside the unscoped rest. -/
theorem split1 (c : Dev nD) (V : (c : Dev nD) → (b : Ref sig .tc) → Buf (Elt F) ((c : Thread nD τ).loc b)) :
    (unscopedBufs c (V c) : sProp 𝕄)
      ⊢ iprop((dat1 V c).arrays ((dat1 V c).arrAt · 0)
          ∗ Pipeline.unscopedRest (Ix := Unit) (Name := ℕ) (U := UR sig nD τ) (Lvl := ℕ) spec1 c (V c)) := by
  rw [unscoped1_split c (V c), arrBufs1_eq c (V c)]
  unfold Dat.arrays
  rw [bigSep_W1]
  have hs : ((((c : Thread nD τ).loc main_v0) ↦{fullShare} V c main_v0) : sProp 𝕄)
      ⊢ iprop((((c : Thread nD τ).loc main_v0) ↦{fullShare.left} V c main_v0) ∗ (((c : Thread nD τ).loc main_v0) ↦{fullShare.right} V c main_v0)) :=
    (pointsTo_share (PosShare.mem_left_op_right fullShare)).1
  iintro ⟨⟨H0, H1⟩, Hrest⟩
  ihave H := hs $$ H0
  icases H with ⟨Hl, Hr⟩
  isplitr [Hrest]
  swap; · iexact Hrest
  isplitl [Hl]
  · rw [(arr_whole1 0).set_eq_univ]; iexact Hl
  isplitl [Hr]
  · rw [(arr_whole1 1).set_eq_univ]; iexact Hr
  rw [(arr_whole1 2).set_eq_univ]; iexact H1

/-- EXIT. The region's arrays at their final contents — the shared input array unchanged under both halves, the
    output at what the write-backs left — and the unscoped rest are the unscoped buffers at any `V'` that has the
    output there and agrees with `V` elsewhere. -/
theorem join1 (c : Dev nD) (V : (c : Dev nD) → (b : Ref sig .tc) → Buf (Elt F) ((c : Thread nD τ).loc b))
    (V' : (b : Ref sig .tc) → Buf (Elt F) ((c : Thread nD τ).loc b))
    (h0 : V' main_v0 = V c main_v0) (h1 : V' main_v1 = (dat1 V c).arrAt 2 cfg1.N)
    (hrest : ∀ b, b ∉ Finset.univ.image (Pipeline.arrRef spec1) → V' b = V c b) :
    iprop((dat1 V c).arrays ((dat1 V c).arrAt · cfg1.N)
        ∗ Pipeline.unscopedRest (Ix := Unit) (Name := ℕ) (U := UR sig nD τ) (Lvl := ℕ) spec1 c (V c))
      ⊢ (unscopedBufs c V' : sProp 𝕄) := by
  rw [unscoped1_split c V', arrBufs1_eq c V', h0, h1]
  have e0 : (dat1 V c).arrAt 0 cfg1.N = V c main_v0 := ((dat1 V c).arrAt_in 0 rfl _).trans (A_eq1 V c 0)
  have e1 : (dat1 V c).arrAt 1 cfg1.N = V c main_v0 := ((dat1 V c).arrAt_in 1 rfl _).trans (A_eq1 V c 1)
  unfold Dat.arrays
  rw [bigSep_W1]
  beta_reduce
  rw [e0, e1]
  have hj : iprop((((c : Thread nD τ).loc main_v0) ↦{fullShare.left} V c main_v0) ∗ (((c : Thread nD τ).loc main_v0) ↦{fullShare.right} V c main_v0))
      ⊢ ((((c : Thread nD τ).loc main_v0) ↦{fullShare} V c main_v0) : sProp 𝕄) :=
    (pointsTo_share (PosShare.mem_left_op_right fullShare)).2
  iintro ⟨⟨Hl, Hr, H1⟩, Hrest⟩
  isplitr [Hrest]
  swap
  · unfold Pipeline.unscopedRest
    iapply (Entails.of_eq (bigSep_congr fun b hb => by rw [hrest b (Finset.mem_sdiff.mp hb).2]))
    iexact Hrest
  isplitr [H1]
  swap; · rw [(arr_whole1 2).set_eq_univ]; iexact H1
  iapply hj
  isplitl [Hl]
  · rw [(arr_whole1 0).set_eq_univ]; iexact Hl
  rw [(arr_whole1 1).set_eq_univ]; iexact Hr

end Cert.KernelIdeal.Hand

end
-- ==== Proof.KiRun.lean ====
/-
  The whole run of @main: the projection call, then the pairwise-distance call, on every core, at any float instance.

  Between the two calls the core's unscoped buffers hold: at launch the memory `m`; after the first call the same with
  the projected rows' array at what the first call's write-backs left; after the second call that with the distance
  matrix's array at what the second call's write-backs left. Each call is a region of @main entered from "every
  unscoped buffer at these contents, the generator register at some state, nothing owed" and left in the next such
  state. The first call's arrays are three distinct buffers, each held whole. The second call reads the projected rows
  through two windows: the entry splits that buffer's share in two halves and the exit joins them.

  The run's post names the distance matrix's final contents and says both argument arrays end as launched: no call
  writes an argument (each reads them through input windows or not at all).
-/
import proofs.«178167_j44040594653319_1_alg».proof.Proof.KiBody0
import proofs.«178167_j44040594653319_1_alg».proof.Proof.KiShare

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev B0 : Dev nD → Valuation τ sig (Elt F) := fun c b => m (c, b)
/-- The same read at the TensorCore's references: what the first call's proof data take. -/
abbrev Vr0 : (c : Dev nD) → (b : Ref sig .tc) → Buf (Elt F) ((c : Thread nD τ).loc b) := fun c b => B0 m c b

/-- After the first call: its arrays at what the pipeline leaves, every other buffer as launched. -/
def B1 (c : Dev nD) : Valuation τ sig (Elt F) :=
  Pipeline.withArrays spec0 c (B0 m c) fun w => (dat0 (Vr0 m) c).arrAt w cfg0.N
theorem B1_arr (c : Dev nD) (w : Fin cfg0.W) :
    B1 m c (Proc.devRef .tc (Pipeline.arrRef spec0 w)) = (dat0 (Vr0 m) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m c (Proc.devRef .tc b) = B0 m c (Proc.devRef .tc b) := by
  unfold B1; exact Pipeline.withArrays_of_ne spec0 c _ _ b hb
/-- The same read at the TensorCore's references: what the second call's proof data take. -/
abbrev Vr1 : (c : Dev nD) → (b : Ref sig .tc) → Buf (Elt F) ((c : Thread nD τ).loc b) := fun c b => B1 m c b
theorem hF0 (c : Dev nD) (w : Fin cfg0.W) : (dat0 (Vr0 m) c).arrAt w cfg0.N = Vr1 m c (Pipeline.arrRef spec0 w) :=
  (B1_arr m c w).symm
theorem hrest0 (c : Dev nD) : ∀ b, b ∉ Finset.univ.image (Pipeline.arrRef spec0) → Vr1 m c b = Vr0 m c b :=
  fun b hb => B1_of_ne m c b fun w e => hb (Finset.mem_image.mpr ⟨w, Finset.mem_univ _, e⟩)

/-- The projected rows as the first call leaves them. -/
def projRows (c : Dev nD) : Buf (Elt F) ((c : Thread nD τ).loc main_v0) := (dat0 (Vr0 m) c).arrAt 2 cfg0.N
theorem Vr1_main_v0 (c : Dev nD) : Vr1 m c main_v0 = projRows m c := B1_arr m c 2

/-- The distance matrix as the second call leaves it. -/
def distMat (c : Dev nD) : Buf (Elt F) ((c : Thread nD τ).loc main_v1) := (dat1 (Vr1 m) c).arrAt 2 cfg1.N

/-- After the second call: the distance matrix's array at what the pipeline leaves, every other buffer as before. -/
def B2 (c : Dev nD) : Valuation τ sig (Elt F) := Function.update (B1 m c) main_v1 (distMat m c)
abbrev Vr2 : (c : Dev nD) → (b : Ref sig .tc) → Buf (Elt F) ((c : Thread nD τ).loc b) := fun c b => B2 m c b
theorem B2_main_v1 (c : Dev nD) : B2 m c (Proc.devRef .tc main_v1) = distMat m c := by
  unfold B2; exact Function.update_self ..
theorem B2_of_ne (c : Dev nD) (b : Ref sig .tc) (hb : b ≠ main_v1) : B2 m c (Proc.devRef .tc b) = B1 m c (Proc.devRef .tc b) := by
  unfold B2
  exact Function.update_of_ne (StableHlo.devRef_ne_of_ne hb : (Proc.devRef .tc b : DevRef τ sig) ≠ Proc.devRef .tc main_v1) _ _

/-- The arguments end as launched: the second call does not hold them among its arrays, the first reads them through
    input windows. -/
theorem B2_main_arg0 (c : Dev nD) : B2 m c (Proc.devRef .tc main_arg0) = m ((c : Thread nD τ).loc main_arg0) :=
  calc B2 m c (Proc.devRef .tc main_arg0)
    _ = B1 m c (Proc.devRef .tc main_arg0) := B2_of_ne m c main_arg0 (by decide)
    _ = B0 m c (Proc.devRef .tc main_arg0) := (B1_arr m c 0).trans (((dat0 (Vr0 m) c).arrAt_in 0 rfl _).trans (A_eq0 (Vr0 m) c 0))
    _ = m ((c : Thread nD τ).loc main_arg0) := rfl
theorem B2_main_arg1 (c : Dev nD) : B2 m c (Proc.devRef .tc main_arg1) = m ((c : Thread nD τ).loc main_arg1) :=
  calc B2 m c (Proc.devRef .tc main_arg1)
    _ = B1 m c (Proc.devRef .tc main_arg1) := B2_of_ne m c main_arg1 (by decide)
    _ = B0 m c (Proc.devRef .tc main_arg1) := (B1_arr m c 1).trans (((dat0 (Vr0 m) c).arrAt_in 1 rfl _).trans (A_eq0 (Vr0 m) c 1))
    _ = m ((c : Thread nD τ).loc main_arg1) := rfl

/-! ## The proof data family and the thread state -/

/-- No call has a prefetched table. -/
abbrev adm : (p : Fin 2) → (pcfgs (F := F) p).Adm := fun p => (cfgs p).toPCfg_adm
/-- Each call's proof data at its entry contents. -/
def pdats : (p : Fin 2) → (c : Dev nD) → Dat τ (Elt F) Unit ℕ (UR sig nD τ) ℕ (Pipeline.pin (pcfgs (F := F)) adm p) c
  | ⟨0, _⟩ => fun c => dat0 (Vr0 m) c
  | ⟨1, _⟩ => fun c => dat1 (Vr1 m) c
abbrev 𝒱₀ : Variants := Variants.none
/-- No core owes another anything. -/
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
/-- The last thread state without the debt. -/
abbrev Tₙ (c : Dev nD) : sProp 𝕄 := iprop(StableHlo.held (c : Thread nD τ) (Pipeline.ucRefs τ sig) (B2 m c) ∗ ∃ r, prngReg c r)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The calls as regions of @main -/

set_option backward.isDefEq.respectTransparency.types false in
/-- The projection call: entered from every unscoped buffer at the launch contents, left at `B1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr0 m) c).loose
  hwaits := Pipeline.hwaits_of_owed_zero _ _ _ _ L lv 0 fun _ _ => rfl
  pre c := iprop(StableHlo.held (c : Thread nD τ) (Pipeline.ucRefs τ sig) (B0 m c) ∗ R c)
  post c := iprop(StableHlo.held (c : Thread nD τ) (Pipeline.ucRefs τ sig) (B1 m c) ∗ R c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr0 m c) (Vr1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pairwise-distance call: entered from every unscoped buffer at `B1`, left at `B2`; the shared input array's
    share split at the entry and joined at the exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (Vr1 m) c).loose
  hwaits := Pipeline.hwaits_of_owed_zero _ _ _ _ L lv 1 fun _ _ => rfl
  pre c := iprop(StableHlo.held (c : Thread nD τ) (Pipeline.ucRefs τ sig) (B1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vr1 m c)
  hentry c := by
    rw [Pipeline.ownSems0_none]
    have hsplit := split1 c (Vr1 m)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := join1 c (Vr1 m) (Vr2 m c) (B2_of_ne m c main_v0 (by decide)) (B2_main_v1 m c)
      (fun b hb => B2_of_ne m c b fun e => hb (Finset.mem_image.mpr ⟨2, Finset.mem_univ _, e.symm⟩))
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

/-- @main's two items in order. -/
abbrev segs : List (Pipeline.Seg (pcfgs (F := F)) adm (pdats m) () defs₀ 𝒱₀ L lv) :=
  [ .region (reg0 m), .region (reg1 m) ]
/-- @main IS the run of the segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting; the
    distance matrix's array ends at `distMat` and both argument arrays end as launched. -/
theorem run_main : θ_run defs (onTc (τ := τ) (main (F := F))) ⟨m, fun _ => 0, ρ⟩ (fun r => ∀ c : Dev nD,
      r.2.mem ((c.tc : Thread nD τ).loc main_v1) = distMat m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B2 m c b)
    (hfin := fun c s' => by
      iintro ⟨⟨Hh, -⟩, HSI⟩
      unfold StableHlo.held
      imodintro
      iapply (pointsTo_read_all (Pipeline.ucRefs τ sig) (fun b => (((c : Thread nD τ)).1, b)) (B2 m c) s')
      isplitl [Hh] <;> iassumption)
    (hQ := fun s h c =>
      ⟨(h c _ (mem_uc main_v1 (by decide))).trans (B2_main_v1 m c),
       (h c _ (mem_uc main_arg0 (by decide))).trans (B2_main_arg0 m c),
       (h c _ (mem_uc main_arg1 (by decide))).trans (B2_main_arg1 m c)⟩)

end Cert.KernelIdeal.Hand

end
-- ==== Proof.Spec.lean ====
/-
  The mathematics both programs compute, over the extended reals, stated once with no program in sight.

  From the position table `pe` (8192 × 768) and the projection matrix `w` (768 × 128):
    * the projected rows      t[r, k]  = ∑_d pe[r, d] · w[d, k];
    * each row's squared norm sq[r]    = ∑_k t[r, k] · t[r, k];
    * the Gram entries        g[r, s]  = ∑_k t[r, k] · t[s, k];
    * the squared distances   d²[r, s] = (sq[r] + sq[s]) − 2 · g[r, s].
  The factor 2 is kept as the pattern both programs print (0x40000000), never evaluated.
-/
import Idealize.ShloMosaic.PureOps.Ideal
import Idealize.ShloMosaic.Lib.ValueIdx

noncomputable section

namespace Cert.Spec

open Idealize.ShloMosaic Idealize.ShloMosaic.ValueIdx
open scoped BigOperators

/-- The position table's shape, the projection matrix's, the projected rows', the distance matrix's. -/
abbrev SPe : Shape := ⟨2, ![8192, 768]⟩
abbrev SW : Shape := ⟨2, ![768, 128]⟩
abbrev ST : Shape := ⟨2, ![8192, 128]⟩
abbrev SD : Shape := ⟨2, ![8192, 8192]⟩

/-- One entry of the projected rows: row `r` of `pe` against column `k` of `w`. -/
def projAt (pe : SPe.Idx → EReal) (w : SW.Idx → EReal) (r : Fin 8192) (k : Fin 128) : EReal :=
  ∑ d : Fin 768, pe (ix2 r d) * w (ix2 d k)

/-- The projected rows as an array. -/
def proj (pe : SPe.Idx → EReal) (w : SW.Idx → EReal) : ST.Idx → EReal :=
  fun i => projAt pe w (i 0) (i 1)

/-- The squared norm of row `r` of `t`. -/
def sqn (t : ST.Idx → EReal) (r : Fin 8192) : EReal :=
  ∑ k : Fin 128, t (ix2 r k) * t (ix2 r k)

/-- The inner product of rows `r` and `s` of `t`. -/
def gram (t : ST.Idx → EReal) (r s : Fin 8192) : EReal :=
  ∑ k : Fin 128, t (ix2 r k) * t (ix2 s k)

/-- The factor 2, as both programs print it. -/
def two : EReal := Ideal.ofBits .f32 0x40000000#32

/-- One squared distance. -/
def distAt (t : ST.Idx → EReal) (r s : Fin 8192) : EReal :=
  (sqn t r + sqn t s) - two * gram t r s

/-- The squared distances between all pairs of rows of `t`. -/
def dist (t : ST.Idx → EReal) : SD.Idx → EReal :=
  fun i => distAt t (i 0) (i 1)

theorem proj_ix2 (pe : SPe.Idx → EReal) (w : SW.Idx → EReal) (r : Fin 8192) (k : Fin 128) :
    proj pe w (ix2 r k) = projAt pe w r k := rfl

theorem dist_ix2 (t : ST.Idx → EReal) (r s : Fin 8192) : dist t (ix2 r s) = distAt t r s := rfl

end Cert.Spec

end
-- ==== Proof.PayIdeal.lean ====
import proofs.«178167_j44040594653319_1_alg».proof.Proof.Gen.KernelIdeal.Skeleton
import proofs.«178167_j44040594653319_1_alg».proof.Proof.Spec
import Idealize.ShloMosaic.Lib.Pipeline.Value
import Idealize.ShloMosaic.Lib.ValueIdx
import Idealize.ShloMosaic.Lib.ValueLayout
import Idealize.ShloMosaic.PureOps.Ideal.Laws
noncomputable section
namespace Cert.KernelIdeal.PayIdeal
open Idealize.ShloMosaic Idealize.ShloMosaic.ValueIdx Cert.KernelIdeal Cert.KernelIdeal.Gen
open scoped BigOperators

/-! ## The projection's product: rows of a 1024 × 768 block against columns of a 768 × 128 matrix

The product contracts axis 1 of the left operand with axis 0 of the right one. At output index (p, k) and
contraction position d the left operand is read at (p, d) and the right one at (d, k); the four
coordinate facts come first, one per operand axis. -/

theorem lhs_proj_0 (i : S1024x128.Idx) (q : dot_S1024x768_S768x128_S1024x128_1_0_0_1_n_n.contr.Idx) :
    (dot_S1024x768_S768x128_S1024x128_1_0_0_1_n_n.lhsIdx i q 0).val = (i 0).val := by
  unfold DotDims.lhsIdx
  rw [dif_neg (show ¬(0 : Fin S1024x768.rank) ∈ dot_S1024x768_S768x128_S1024x128_1_0_0_1_n_n.lhsBatch by decide), dif_pos (show (0 : Fin S1024x768.rank) ∈ dot_S1024x768_S768x128_S1024x128_1_0_0_1_n_n.lhsNonContracting by decide)]
  rfl
theorem lhs_proj_1 (i : S1024x128.Idx) (q : dot_S1024x768_S768x128_S1024x128_1_0_0_1_n_n.contr.Idx) :
    (dot_S1024x768_S768x128_S1024x128_1_0_0_1_n_n.lhsIdx i q 1).val = (q ⟨0, by decide⟩).val :=
  dot_S1024x768_S768x128_S1024x128_1_0_0_1_n_n.lhsIdx_val_of_single rfl i q
theorem rhs_proj_0 (i : S1024x128.Idx) (q : dot_S1024x768_S768x128_S1024x128_1_0_0_1_n_n.contr.Idx) :
    (dot_S1024x768_S768x128_S1024x128_1_0_0_1_n_n.rhsIdx i q 0).val = (q ⟨0, by decide⟩).val :=
  dot_S1024x768_S768x128_S1024x128_1_0_0_1_n_n.rhsIdx_val_of_single rfl i q
theorem rhs_proj_1 (i : S1024x128.Idx) (q : dot_S1024x768_S768x128_S1024x128_1_0_0_1_n_n.contr.Idx) :
    (dot_S1024x768_S768x128_S1024x128_1_0_0_1_n_n.rhsIdx i q 1).val = (i 1).val := by
  unfold DotDims.rhsIdx
  rw [dif_neg (show ¬(1 : Fin S768x128.rank) ∈ dot_S1024x768_S768x128_S1024x128_1_0_0_1_n_n.rhsBatch by decide), dif_pos (show (1 : Fin S768x128.rank) ∈ dot_S1024x768_S768x128_S1024x128_1_0_0_1_n_n.rhsNonContracting by decide)]
  rfl

/-- The product into the zero block, read at (p, k): the sum over the contracted axis. -/
theorem proj_matmul_apply {φ₁ φ₂ : FTy} (l : FVec Ideal S1024x768 φ₁) (r : FVec Ideal S768x128 φ₂) (p : Fin 1024) (k : Fin 128) :
    matmul (F := Ideal) dot_S1024x768_S768x128_S1024x128_1_0_0_1_n_n none l r (constant (F := Ideal) S1024x128 .f32 0x00000000#32) (ix2 p k)
      = ∑ d : Fin 768, l (ix2 p d) * r (ix2 d k) := by
  simp only [matmul]
  rw [Ideal.matmul_constant_zero_apply, ← Equiv.sum_comp (ValueIdx.contrEquiv1 dot_S1024x768_S768x128_S1024x128_1_0_0_1_n_n 768 rfl rfl).symm]
  refine Finset.sum_congr rfl fun d _ => ?_
  have hd := ValueIdx.contrEquiv1_symm_val dot_S1024x768_S768x128_S1024x128_1_0_0_1_n_n 768 rfl rfl d
  have el : dot_S1024x768_S768x128_S1024x128_1_0_0_1_n_n.lhsIdx (ix2 p k) ((ValueIdx.contrEquiv1 dot_S1024x768_S768x128_S1024x128_1_0_0_1_n_n 768 rfl rfl).symm d) = ix2 p d := funext fun a => Fin.ext (by
    match a with
    | ⟨0, _⟩ => exact lhs_proj_0 _ _
    | ⟨1, _⟩ => exact (lhs_proj_1 _ _).trans hd)
  have er : dot_S1024x768_S768x128_S1024x128_1_0_0_1_n_n.rhsIdx (ix2 p k) ((ValueIdx.contrEquiv1 dot_S1024x768_S768x128_S1024x128_1_0_0_1_n_n 768 rfl rfl).symm d) = ix2 d k := funext fun a => Fin.ext (by
    match a with
    | ⟨0, _⟩ => exact (rhs_proj_0 _ _).trans hd
    | ⟨1, _⟩ => exact rhs_proj_1 _ _)
  rw [el, er]

/-- The projection payload at row p, column k of its block: the row of the position block against the column of the matrix. -/
theorem pay0_apply (x0 : Vec Ideal S1024x768 .f32) (x1 : Vec Ideal S768x128 .f32) (p : Fin 1024) (k : Fin 128) :
    k0_pay1 (F := Ideal) x0 x1 (ix2 p k) = ∑ d : Fin 768, x0 (ix2 p d) * x1 (ix2 d k) := by
  unfold k0_pay1
  exact proj_matmul_apply (truncf .bf16 x0 bitsLt_bf16_f32) (truncf .bf16 x1 bitsLt_bf16_f32) p k

/-! ## The Gram product: rows of one 1024 × 128 block against rows of another

The product contracts axis 1 of both operands. At output index (p, q) and contraction position k the left
operand is read at (p, k) and the right one at (q, k). -/

theorem lhs_gram_0 (i : S1024x1024.Idx) (c : dot_S1024x128_S1024x128_S1024x1024_1_1_0_0_n_n.contr.Idx) :
    (dot_S1024x128_S1024x128_S1024x1024_1_1_0_0_n_n.lhsIdx i c 0).val = (i 0).val := by
  unfold DotDims.lhsIdx
  rw [dif_neg (show ¬(0 : Fin S1024x128.rank) ∈ dot_S1024x128_S1024x128_S1024x1024_1_1_0_0_n_n.lhsBatch by decide), dif_pos (show (0 : Fin S1024x128.rank) ∈ dot_S1024x128_S1024x128_S1024x1024_1_1_0_0_n_n.lhsNonContracting by decide)]
  rfl
theorem lhs_gram_1 (i : S1024x1024.Idx) (c : dot_S1024x128_S1024x128_S1024x1024_1_1_0_0_n_n.contr.Idx) :
    (dot_S1024x128_S1024x128_S1024x1024_1_1_0_0_n_n.lhsIdx i c 1).val = (c ⟨0, by decide⟩).val :=
  dot_S1024x128_S1024x128_S1024x1024_1_1_0_0_n_n.lhsIdx_val_of_single rfl i c
theorem rhs_gram_0 (i : S1024x1024.Idx) (c : dot_S1024x128_S1024x128_S1024x1024_1_1_0_0_n_n.contr.Idx) :
    (dot_S1024x128_S1024x128_S1024x1024_1_1_0_0_n_n.rhsIdx i c 0).val = (i 1).val := by
  unfold DotDims.rhsIdx
  rw [dif_neg (show ¬(0 : Fin S1024x128.rank) ∈ dot_S1024x128_S1024x128_S1024x1024_1_1_0_0_n_n.rhsBatch by decide), dif_pos (show (0 : Fin S1024x128.rank) ∈ dot_S1024x128_S1024x128_S1024x1024_1_1_0_0_n_n.rhsNonContracting by decide)]
  rfl
theorem rhs_gram_1 (i : S1024x1024.Idx) (c : dot_S1024x128_S1024x128_S1024x1024_1_1_0_0_n_n.contr.Idx) :
    (dot_S1024x128_S1024x128_S1024x1024_1_1_0_0_n_n.rhsIdx i c 1).val = (c ⟨0, by decide⟩).val :=
  dot_S1024x128_S1024x128_S1024x1024_1_1_0_0_n_n.rhsIdx_val_of_single rfl i c

/-- The product into the zero block, read at (p, q): the inner product of row p of the left block and row q of the right one. -/
theorem gram_matmul_apply {φ₁ φ₂ : FTy} (l : FVec Ideal S1024x128 φ₁) (r : FVec Ideal S1024x128 φ₂) (p q : Fin 1024) :
    matmul (F := Ideal) dot_S1024x128_S1024x128_S1024x1024_1_1_0_0_n_n none l r (constant (F := Ideal) S1024x1024 .f32 0x00000000#32) (ix2 p q)
      = ∑ k : Fin 128, l (ix2 p k) * r (ix2 q k) := by
  simp only [matmul]
  rw [Ideal.matmul_constant_zero_apply, ← Equiv.sum_comp (ValueIdx.contrEquiv1 dot_S1024x128_S1024x128_S1024x1024_1_1_0_0_n_n 128 rfl rfl).symm]
  refine Finset.sum_congr rfl fun k _ => ?_
  have hk := ValueIdx.contrEquiv1_symm_val dot_S1024x128_S1024x128_S1024x1024_1_1_0_0_n_n 128 rfl rfl k
  have el : dot_S1024x128_S1024x128_S1024x1024_1_1_0_0_n_n.lhsIdx (ix2 p q) ((ValueIdx.contrEquiv1 dot_S1024x128_S1024x128_S1024x1024_1_1_0_0_n_n 128 rfl rfl).symm k) = ix2 p k := funext fun a => Fin.ext (by
    match a with
    | ⟨0, _⟩ => exact lhs_gram_0 _ _
    | ⟨1, _⟩ => exact (lhs_gram_1 _ _).trans hk)
  have er : dot_S1024x128_S1024x128_S1024x1024_1_1_0_0_n_n.rhsIdx (ix2 p q) ((ValueIdx.contrEquiv1 dot_S1024x128_S1024x128_S1024x1024_1_1_0_0_n_n 128 rfl rfl).symm k) = ix2 q k := funext fun a => Fin.ext (by
    match a with
    | ⟨0, _⟩ => exact rhs_gram_0 _ _
    | ⟨1, _⟩ => exact (rhs_gram_1 _ _).trans hk)
  rw [el, er]

/-! ## The lane sum and the layout operations that carry it to the block -/

/-- The sum along the lanes of a 1024 × 128 block, read at row p. -/
theorem lanesum_apply (y : FVec Ideal S1024x128 .f32) (hφ : FKind.Formats .f32)
    (hacc : (0x00000000#32 : BitVec (FTy.bits .f32)) = FKind.add.neutral .f32 hφ) (p : Fin 1024) :
    multiReduction (F := Ideal) .add [1] S1024 y 0x00000000#32 reduces_S1024x128_S1024 hφ hacc (ix1 p) = ∑ k : Fin 128, y (ix2 p k) :=
  (Ideal.multiReduction_add_single y _ reduces_S1024x128_S1024 hφ hacc (ix1 p)).trans
    (Finset.sum_congr rfl fun k _ => congrArg y (funext fun a => Fin.ext (by
      match a with
      | ⟨0, _⟩ => rfl
      | ⟨1, _⟩ => rfl)))

section Layout
variable {α : Type}

/-- A vector of 1024 entries cast to a column reads, at (p, u), its entry p. -/
theorem cast_column_apply (v : S1024.Idx → α) (h : S1024.ShapeCasts S1024x1) (p : Fin 1024) (u : Fin 1) :
    shapeCast S1024x1 v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- A column transposed to a row reads, at (u, q), the column's entry (q, u). -/
theorem transpose_column_apply (x : S1024x1.Idx → α) (h : S1024x1.Transposes [1, 0] S1x1024) (u : Fin 1) (q : Fin 1024) :
    transpose S1x1024 [1, 0] x h (ix2 u q) = x (ix2 q u) :=
  transpose_apply _ x h _ _ fun c => match c with | ⟨0, _⟩ => rfl | ⟨1, _⟩ => rfl

/-- A column broadcast along the lanes reads, at (p, q), the column's entry p. -/
theorem broadcast_column_apply (x : S1024x1.Idx → α) (h : S1024x1.Broadcasts S1024x1024) (p q : Fin 1024) :
    broadcastTo S1024x1024 x h (ix2 p q) = x (ix2 p (0 : Fin 1)) := by
  refine broadcastTo_apply x h (ix2 p q) (ix2 p (0 : Fin 1)) fun ax => ?_
  match ax with
  | ⟨0, _⟩ =>
    show p.val = if (1024 : Nat) = 1 then 0 else p.val
    rw [if_neg (by decide)]
  | ⟨1, _⟩ => rfl

/-- A row broadcast along the rows reads, at (p, q), the row's entry q. -/
theorem broadcast_row_apply (x : S1x1024.Idx → α) (h : S1x1024.Broadcasts S1024x1024) (p q : Fin 1024) :
    broadcastTo S1024x1024 x h (ix2 p q) = x (ix2 (0 : Fin 1) q) := by
  refine broadcastTo_apply x h (ix2 p q) (ix2 (0 : Fin 1) q) fun ax => ?_
  match ax with
  | ⟨0, _⟩ => rfl
  | ⟨1, _⟩ =>
    show q.val = if (1024 : Nat) = 1 then 0 else q.val
    rw [if_neg (by decide)]

end Layout

/-! ## The distance payload -/

/-- The distance payload at (p, q) of its block: the two rows' squared norms less twice their inner product. -/
theorem pay1_apply (a b : Vec Ideal S1024x128 .bf16) (p q : Fin 1024) :
    k1_pay1 (F := Ideal) a b (ix2 p q)
      = ((∑ k : Fin 128, a (ix2 p k) * a (ix2 p k)) + (∑ k : Fin 128, b (ix2 q k) * b (ix2 q k)))
        - Cert.Spec.two * ∑ k : Fin 128, a (ix2 p k) * b (ix2 q k) := by
  unfold k1_pay1
  rw [shapeCast_self a shapeCasts_S1024x128_S1024x128, shapeCast_self b shapeCasts_S1024x128_S1024x128]
  refine congrArg₂ (· - ·) (congrArg₂ (· + ·) ?_ ?_) (congrArg₂ (· * ·) rfl ?_)
  · exact (broadcast_column_apply _ _ p q).trans ((cast_column_apply _ _ p 0).trans (lanesum_apply _ _ _ p))
  · exact (broadcast_row_apply _ _ p q).trans ((transpose_column_apply _ _ 0 q).trans
      ((cast_column_apply _ _ q 0).trans (lanesum_apply _ _ _ q)))
  · exact gram_matmul_apply a b p q

end Cert.KernelIdeal.PayIdeal

end
-- ==== Proof.KiVal0.lean ====
import proofs.«178167_j44040594653319_1_alg».proof.Proof.KiBody0
import proofs.«178167_j44040594653319_1_alg».proof.Proof.PayIdeal
import proofs.«178167_j44040594653319_1_alg».proof.Proof.Spec
import Idealize.ShloMosaic.Lib.Pipeline.Value
import Idealize.ShloMosaic.Lib.ValueIdx

set_option maxRecDepth 16384
noncomputable section
namespace Cert.KernelIdeal.Val
open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand
open scoped BigOperators

/-! ## The windows' blocks on the grid

Point t of the 8-point grid stages rows 1024·t … 1024·t + 1023 of the position table, the whole projection
matrix, and writes back rows 1024·t … 1024·t + 1023 of the projected rows. -/

theorem hz0 : (![0, 0] : Fin 2 → Nat) = fun _ => 0 := funext fun a => by fin_cases a <;> rfl

/-- The block indices at every point of the grid: the position block and the output block are at (t, 0), the matrix
    at (0, 0); and the grid has 8 points. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val ≤ 7 :=
  (by decide +kernel : ∀ t : Fin grid0.N, _)

/-- Every block of 1024 rows of the output is some point's. -/
theorem idx_onto0 : ∀ q0 : Fin 8, ∃ t : Fin cfg0.N, win0_2.index t = ![q0.val, 0] :=
  (by decide +kernel : ∀ q0 : Fin 8, ∃ t : Fin grid0.N, win0_2.index t = ![q0.val, 0])

/-! ## The input blocks as entries of the arguments -/

/-- Entry (p, d) of the position block at point t is entry (1024·t + p, d) of the position table. -/
theorem pe_blk0 (V : (c : Dev nD) → (b : Ref sig .tc) → Buf (Elt Ideal) ((c : Thread nD τ).loc b)) (c : Dev nD) (t : Fin cfg0.N)
    (p : Fin 1024) (d : Fin 768) (r : Fin 8192) (hr : r.val = t.val * 1024 + p.val) :
    iblk0 (F := Ideal) V c 0 t (ix2 p d) = V c main_arg0 (ix2 r d) := by
  obtain ⟨e0, e1, -⟩ := idx_facts0 t
  show V c main_arg0 (((cfg0.win 0).blk t).view.emb (ix2 p d)) = V c main_arg0 (ix2 r d)
  refine congrArg (V c main_arg0) (funext fun a => Fin.ext ?_)
  match a with
  | ⟨0, _⟩ => show win0_0.index t (0 : Fin 2) * 1024 + 1 * p.val = r.val; omega
  | ⟨1, _⟩ => show win0_0.index t (1 : Fin 2) * 768 + 1 * d.val = d.val; omega

/-- Entry (d, k) of the matrix block at any point is entry (d, k) of the projection matrix. -/
theorem w_blk0 (V : (c : Dev nD) → (b : Ref sig .tc) → Buf (Elt Ideal) ((c : Thread nD τ).loc b)) (c : Dev nD) (t : Fin cfg0.N)
    (d : Fin 768) (k : Fin 128) :
    iblk0 (F := Ideal) V c 1 t (ix2 d k) = V c main_arg1 (ix2 d k) := by
  obtain ⟨-, -, e2, e3, -⟩ := idx_facts0 t
  show V c main_arg1 (((cfg0.win 1).blk t).view.emb (ix2 d k)) = V c main_arg1 (ix2 d k)
  refine congrArg (V c main_arg1) (funext fun a => Fin.ext ?_)
  match a with
  | ⟨0, _⟩ => show win0_1.index t (0 : Fin 2) * 768 + 1 * d.val = d.val; omega
  | ⟨1, _⟩ => show win0_1.index t (1 : Fin 2) * 128 + 1 * k.val = k.val; omega

/-- Entry (p, k) of the output block at point t sits at (1024·t + p, k) of the projected rows. -/
theorem out_emb0 (t : Fin cfg0.N) (p : Fin 1024) (k : Fin 128) (r : Fin 8192) (hr : r.val = t.val * 1024 + p.val) :
    ((cfg0.win 2).blk t).view.emb (ix2 p k) = ix2 r k := by
  obtain ⟨-, -, -, -, e4, e5, -⟩ := idx_facts0 t
  refine funext fun a => Fin.ext ?_
  match a with
  | ⟨0, _⟩ => show win0_2.index t (0 : Fin 2) * 1024 + 1 * p.val = r.val; omega
  | ⟨1, _⟩ => show win0_2.index t (1 : Fin 2) * 128 + 1 * k.val = k.val; omega

/-- The projected rows read at an index given by its coordinates. -/
theorem proj_at0 (pe : Cert.Spec.SPe.Idx → EReal) (w : Cert.Spec.SW.Idx → EReal) (i : Cert.Spec.ST.Idx) (r : Fin 8192) (k : Fin 128)
    (h : i = ix2 r k) : Cert.Spec.proj pe w i = Cert.Spec.projAt pe w r k := by
  subst h; rfl

/-! ## What a point writes back -/

/-- Point t writes back block t of the projected rows of the arguments as the region finds them. -/
theorem flushed0_eq (V : (c : Dev nD) → (b : Ref sig .tc) → Buf (Elt Ideal) ((c : Thread nD τ).loc b)) (c : Dev nD) (t : Fin cfg0.N) :
    (dat0 (F := Ideal) V c).flushed 2 t = ((cfg0.win 2).blk t).view.read (Elt Ideal) (Cert.Spec.proj (V c main_arg0) (V c main_arg1)) := by
  show (cfg0.win 2).cut (grid0.coords t) ((dat0 (F := Ideal) V c).after 2 t) = _
  rw [after0_2]
  unfold out0_2
  rw [View.canon_unit_zero hz0]
  simp only [View.ld_unit_zero (S := S1024x768) hz0, View.ld_unit_zero (S := S768x128) hz0]
  funext j
  obtain ⟨p, q, rfl⟩ : ∃ (p : Fin 1024) (q : Fin 128), j = ix2 p q := ⟨j 0, j 1, eq_ix2 j⟩
  have ht : t.val ≤ 7 := (idx_facts0 t).2.2.2.2.2.2
  show k0_pay1 (F := Ideal) (iblk0 V c 0 t) (iblk0 V c 1 t) (ix2 p q)
    = Cert.Spec.proj (V c main_arg0) (V c main_arg1) (((cfg0.win 2).blk t).view.emb (ix2 p q))
  refine (Cert.KernelIdeal.PayIdeal.pay0_apply _ _ p q).trans ?_
  refine Eq.trans ?_ (proj_at0 _ _ _ ⟨t.val * 1024 + p.val, by omega⟩ q (out_emb0 t p q _ rfl)).symm
  unfold Cert.Spec.projAt
  exact Finset.sum_congr rfl fun d _ => congrArg₂ (· * ·) (pe_blk0 V c t p d _ rfl) (w_blk0 V c t d q)

/-! ## The blocks cover the array -/

/-- An index of the projected rows is in point t's block iff each coordinate is in the block's range on its axis. -/
theorem mem_blk0 (t : Fin cfg0.N) (i : S8192x128.Idx) :
    i ∈ ((cfg0.win 2).blk t).view.set ↔ ∀ a : Fin 2, win0_2.index t a * S1024x128.size a ≤ (i a).val ∧ (i a).val < win0_2.index t a * S1024x128.size a + S1024x128.size a := by
  show i ∈ ((View.whole main_v0).slice (win0_2.rect t)).set ↔ _
  rw [View.set_slice_whole, Rect.mem_set_unit]
  exact Iff.rfl

/-- Row r of the projected rows is written by point r / 1024. -/
theorem cover0 (i : S8192x128.Idx) : ∃ t : Fin cfg0.N, (cfg0.win 2).flush t = true ∧ i ∈ ((cfg0.win 2).blk t).view.set := by
  have hi0 : (i 0).val < 8192 := (i 0).isLt
  have hi1 : (i 1).val < 128 := (i 1).isLt
  obtain ⟨t, ht⟩ := idx_onto0 ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 128 ≤ (i 1).val ∧ (i 1).val < win0_2.index t (1 : Fin 2) * 128 + 128; omega

/-! ## The array after the call -/

/-- The projected rows' array after the first call: every row of the position table against every column of the matrix. -/
theorem arr0_final (V : (c : Dev nD) → (b : Ref sig .tc) → Buf (Elt Ideal) ((c : Thread nD τ).loc b)) (c : Dev nD) :
    (dat0 (F := Ideal) V c).arrAt 2 cfg0.N = Cert.Spec.proj (V c main_arg0) (V c main_arg1) :=
  (dat0 (F := Ideal) V c).arrAt_eq_of_cover 2 (Cert.Spec.proj (V c main_arg0) (V c main_arg1)) (fun t _ => flushed0_eq V c t) cover0

end Cert.KernelIdeal.Val

end
-- ==== Proof.KiVal1.lean ====
import proofs.«178167_j44040594653319_1_alg».proof.Proof.KiBody1
import proofs.«178167_j44040594653319_1_alg».proof.Proof.PayIdeal
import proofs.«178167_j44040594653319_1_alg».proof.Proof.Spec
import Idealize.ShloMosaic.Lib.Pipeline.Value
import Idealize.ShloMosaic.Lib.ValueIdx

set_option maxRecDepth 16384
noncomputable section
namespace Cert.KernelIdeal.Val
open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand
open scoped BigOperators

/-! # The distance matrix after the second call

The grid is 8 × 8. Point (a, b) reads rows 1024·a … 1024·a + 1023 of the projected rows as its left block and
rows 1024·b … 1024·b + 1023 of the same array as its right block, and writes the 1024 × 1024 block (a, b) of the
distance matrix. Entry (p, q) of that block is the squared norm of left row p plus the squared norm of right row q
less twice their inner product, which is the squared distance between rows 1024·a + p and 1024·b + q of the
array. The 64 blocks tile the 8192 × 8192 matrix, so the matrix ends holding every pair's squared distance. -/

/-- The zero offset on both axes, as a constant function. -/
theorem hz1 : (![0, 0] : Fin 2 → Nat) = fun _ => 0 := funext fun a => by fin_cases a <;> rfl

/-- The block indices over the grid: the left row block's row index is the output block's row index, the right row
    block's row index is the output block's column index, both row blocks sit at lane block 0, and the output's two
    block indices stay below 8. -/
theorem idx_facts1 : ∀ t : Fin cfg1.N,
    win1_0.index t (0 : Fin 2) = win1_2.index t (0 : Fin 2)
    ∧ win1_0.index t (1 : Fin 2) = 0
    ∧ win1_1.index t (0 : Fin 2) = win1_2.index t (1 : Fin 2)
    ∧ win1_1.index t (1 : Fin 2) = 0
    ∧ win1_2.index t (0 : Fin 2) ≤ 7
    ∧ win1_2.index t (1 : Fin 2) ≤ 7 :=
  (by decide +kernel : ∀ t : Fin grid1.N, _)

/-- Every one of the 8 × 8 output blocks is some point's. -/
theorem idx_onto1 : ∀ (q0 q1 : Fin 8), ∃ t : Fin cfg1.N, win1_2.index t = ![q0.val, q1.val] :=
  (by decide +kernel : ∀ (q0 q1 : Fin 8), ∃ t : Fin grid1.N, win1_2.index t = ![q0.val, q1.val])

/-- If row p of the left block is row r of the array and row q of the right block is row s, the payload at (p, q)
    is the squared distance between rows r and s. -/
theorem dist_of_rows1 (T : Cert.Spec.ST.Idx → EReal) (a b : Vec Ideal S1024x128 .bf16) (p q : Fin 1024) (r s : Fin 8192)
    (ha : ∀ k : Fin 128, a (ix2 p k) = T (ix2 r k)) (hb : ∀ k : Fin 128, b (ix2 q k) = T (ix2 s k)) :
    k1_pay1 (F := Ideal) a b (ix2 p q) = Cert.Spec.distAt T r s := by
  rw [PayIdeal.pay1_apply]
  unfold Cert.Spec.distAt Cert.Spec.sqn Cert.Spec.gram
  simp only [ha, hb]

/-- The left row block at a point: its row p is the array's row (output block row index) · 1024 + p. -/
theorem iblk1_0_apply (V : (c : Dev nD) → (b : Ref sig .tc) → Buf (Elt Ideal) ((c : Thread nD τ).loc b)) (c : Dev nD) (t : Fin cfg1.N) (p : Fin 1024) (k : Fin 128) (r : Fin 8192)
    (hr : r.val = win1_2.index t (0 : Fin 2) * 1024 + 1 * p.val) :
    iblk1 (F := Ideal) V c 0 t (ix2 p k) = V c main_v0 (ix2 r k) := by
  obtain ⟨e0, e1, e2, e3, e4, e5⟩ := idx_facts1 t
  show V c main_v0 (((cfg1.win 0).blk t).view.emb (ix2 p k)) = V c main_v0 (ix2 r k)
  refine congrArg (V c main_v0) (funext fun a => Fin.ext ?_)
  match a with
  | ⟨0, _⟩ => show win1_0.index t (0 : Fin 2) * 1024 + 1 * p.val = r.val; omega
  | ⟨1, _⟩ => show win1_0.index t (1 : Fin 2) * 128 + 1 * k.val = k.val; omega

/-- The right row block at a point: its row q is the array's row (output block column index) · 1024 + q. -/
theorem iblk1_1_apply (V : (c : Dev nD) → (b : Ref sig .tc) → Buf (Elt Ideal) ((c : Thread nD τ).loc b)) (c : Dev nD) (t : Fin cfg1.N) (q : Fin 1024) (k : Fin 128) (s : Fin 8192)
    (hs : s.val = win1_2.index t (1 : Fin 2) * 1024 + 1 * q.val) :
    iblk1 (F := Ideal) V c 1 t (ix2 q k) = V c main_v0 (ix2 s k) := by
  obtain ⟨e0, e1, e2, e3, e4, e5⟩ := idx_facts1 t
  show V c main_v0 (((cfg1.win 1).blk t).view.emb (ix2 q k)) = V c main_v0 (ix2 s k)
  refine congrArg (V c main_v0) (funext fun a => Fin.ext ?_)
  match a with
  | ⟨0, _⟩ => show win1_1.index t (0 : Fin 2) * 1024 + 1 * q.val = s.val; omega
  | ⟨1, _⟩ => show win1_1.index t (1 : Fin 2) * 128 + 1 * k.val = k.val; omega

/-- The payload of a point's two row blocks at an entry of its block is the squared distance at the entry's place in
    the whole matrix. -/
theorem flushed1_at (V : (c : Dev nD) → (b : Ref sig .tc) → Buf (Elt Ideal) ((c : Thread nD τ).loc b)) (c : Dev nD) (t : Fin cfg1.N) (j : S1024x1024.Idx) :
    k1_pay1 (F := Ideal) (iblk1 V c 0 t) (iblk1 V c 1 t) j = Cert.Spec.dist (V c main_v0) (((cfg1.win 2).blk t).view.emb j) := by
  obtain ⟨p, q, rfl⟩ : ∃ (p : Fin 1024) (q : Fin 1024), j = ix2 p q := ⟨j 0, j 1, eq_ix2 j⟩
  exact dist_of_rows1 (V c main_v0) _ _ p q _ _ (fun k => iblk1_0_apply V c t p k _ rfl) (fun k => iblk1_1_apply V c t q k _ rfl)

/-- What a point writes back is its block of the matrix of squared distances. -/
theorem flushed1_eq (V : (c : Dev nD) → (b : Ref sig .tc) → Buf (Elt Ideal) ((c : Thread nD τ).loc b)) (c : Dev nD) (t : Fin cfg1.N) :
    (dat1 (F := Ideal) V c).flushed 2 t = ((cfg1.win 2).blk t).view.read (Elt Ideal) (Cert.Spec.dist (V c main_v0)) := by
  show (cfg1.win 2).cut (grid1.coords t) ((dat1 (F := Ideal) V c).after 2 t) = _
  rw [after1_2]
  unfold out1_2
  rw [View.canon_unit_zero hz1]
  simp only [View.ld_unit_zero (S := S1024x128) hz1]
  funext j
  exact flushed1_at V c t j

/-- An index of the matrix is in a point's block iff each coordinate is in the block's range on its axis. -/
theorem mem_blk1 (t : Fin cfg1.N) (i : S8192x8192.Idx) :
    i ∈ ((cfg1.win 2).blk t).view.set ↔ ∀ a : Fin 2, win1_2.index t a * S1024x1024.size a ≤ (i a).val ∧ (i a).val < win1_2.index t a * S1024x1024.size a + S1024x1024.size a := by
  show i ∈ ((View.whole main_v1).slice (win1_2.rect t)).set ↔ _
  rw [View.set_slice_whole, Rect.mem_set_unit]
  exact Iff.rfl

/-- The blocks cover the matrix: entry (r, s) lies in block (r / 1024, s / 1024). -/
theorem cover1 (i : S8192x8192.Idx) :
    ∃ t : Fin cfg1.N, (cfg1.win 2).flush t = true ∧ i ∈ ((cfg1.win 2).blk t).view.set := by
  have hi0 : (i 0).val < 8192 := (i 0).isLt
  have hi1 : (i 1).val < 8192 := (i 1).isLt
  obtain ⟨t, ht⟩ := idx_onto1 ⟨(i 0).val / 1024, by omega⟩ ⟨(i 1).val / 1024, by omega⟩
  have q0 : win1_2.index t (0 : Fin 2) = (i 0).val / 1024 := congrFun ht 0
  have q1 : win1_2.index t (1 : Fin 2) = (i 1).val / 1024 := congrFun ht 1
  refine ⟨t, flush1_2 t, ?_⟩
  rw [mem_blk1]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 1024 ≤ (i 1).val ∧ (i 1).val < win1_2.index t (1 : Fin 2) * 1024 + 1024; omega

/-- The distance matrix's array after the second call: for every pair of rows of its input array, the two squared norms less twice the inner product. -/
theorem arr1_final (V : (c : Dev nD) → (b : Ref sig .tc) → Buf (Elt Ideal) ((c : Thread nD τ).loc b)) (c : Dev nD) :
    (dat1 (F := Ideal) V c).arrAt 2 cfg1.N = Cert.Spec.dist (V c main_v0) :=
  (dat1 (F := Ideal) V c).arrAt_eq_of_cover 2 (Cert.Spec.dist (V c main_v0)) (fun t _ => flushed1_eq V c t) cover1

end Cert.KernelIdeal.Val
end
-- ==== Proof.KiValue.lean ====
/-
  The distance matrix the idealized kernel leaves, as one function of the two argument arrays: the second call's output
  array is the squared-distance matrix of its input array, which is what the first call left, the projected rows of the
  position table by the projection matrix.
-/
import proofs.«178167_j44040594653319_1_alg».proof.Proof.KiRun
import proofs.«178167_j44040594653319_1_alg».proof.Proof.KiVal0
import proofs.«178167_j44040594653319_1_alg».proof.Proof.KiVal1
import proofs.«178167_j44040594653319_1_alg».proof.Proof.Spec

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen Cert.KernelIdeal.Hand

/-- After the run the distance matrix's array holds, for every pair of rows, the squared distance of the two projected
    rows. -/
theorem distMat_eq (m : (ℓ : Loc nD τ sig) → Buf (Elt Ideal) ℓ) (c : Dev nD) :
    distMat (F := Ideal) m c
      = Cert.Spec.dist (Cert.Spec.proj (m ((c : Thread nD τ).loc main_arg0)) (m ((c : Thread nD τ).loc main_arg1))) :=
  (arr1_final (Vr1 m) c).trans (congrArg Cert.Spec.dist ((Vr1_main_v0 m c).trans (arr0_final (Vr0 m) c)))

end Cert.KernelIdeal.Val

end
-- ==== Proof.RefSpec.lean ====
/-
  The reference program, read at the extended reals, computes the specification.

  Operation by operation: the first contraction gives the projected rows t[r, k] = ∑_d pe[r, d] · w[d, k];
  the row sum of the squares gives sq[r] = ∑_k t[r, k] · t[r, k] (its initial value is the zero word, which is 0);
  the contraction of t against its transpose gives g[r, s] = ∑_k t[r, k] · t[s, k]; the two broadcasts of sq
  place sq[r] and sq[s] at entry (r, s); and the result is (sq[r] + sq[s]) − 2 · g[r, s], the factor 2 being the
  same word on both sides.
-/
import proofs.«178167_j44040594653319_1_alg».proof.Proof.Gen.ReferenceIdeal.Read
import proofs.«178167_j44040594653319_1_alg».proof.Proof.Spec
noncomputable section
namespace Cert.ReferenceIdeal.RefSpec
open Idealize.ShloMosaic Idealize.ShloMosaic.ValueIdx Cert.ReferenceIdeal Cert.ReferenceIdeal.Read
open scoped BigOperators

/-! ## Where each operation reads its operands -/

/-- Entry `(r, k)` of the projection reads the position table at `(r, d)`. -/
theorem lidx_v0 (r : Fin 8192) (k : Fin 128) (d : Fin 768) : lidx_main_v0 (ix2 r k) d = ix2 r d :=
  funext fun a => Fin.ext (by match a with | ⟨0, _⟩ => rfl | ⟨1, _⟩ => rfl)

/-- Entry `(r, k)` of the projection reads the projection matrix at `(d, k)`. -/
theorem ridx_v0 (r : Fin 8192) (k : Fin 128) (d : Fin 768) : ridx_main_v0 (ix2 r k) d = ix2 d k :=
  funext fun a => Fin.ext (by match a with | ⟨0, _⟩ => rfl | ⟨1, _⟩ => rfl)

/-- Row `r` of the row sum reads the squares at `(r, k)`. -/
theorem idx_v2 (r : Fin 8192) (k : Fin 128) : idx_main_v2 (ix1 r) k = ix2 r k :=
  funext fun a => Fin.ext (by match a with | ⟨0, _⟩ => rfl | ⟨1, _⟩ => rfl)

/-- Entry `(k, s)` of the transpose reads the projected rows at `(s, k)`. -/
theorem idx_v3 (k : Fin 128) (s : Fin 8192) : idx_main_v3 (ix2 k s) = ix2 s k :=
  funext fun a => Fin.ext (by match a with | ⟨0, _⟩ => rfl | ⟨1, _⟩ => rfl)

/-- Entry `(r, s)` of the Gram contraction reads the projected rows at `(r, k)`. -/
theorem lidx_v4 (r s : Fin 8192) (k : Fin 128) : lidx_main_v4 (ix2 r s) k = ix2 r k :=
  funext fun a => Fin.ext (by match a with | ⟨0, _⟩ => rfl | ⟨1, _⟩ => rfl)

/-- Entry `(r, s)` of the Gram contraction reads the transpose at `(k, s)`. -/
theorem ridx_v4 (r s : Fin 8192) (k : Fin 128) : ridx_main_v4 (ix2 r s) k = ix2 k s :=
  funext fun a => Fin.ext (by match a with | ⟨0, _⟩ => rfl | ⟨1, _⟩ => rfl)

/-- Entry `(r, s)` of the column broadcast reads the squared norms at `r`. -/
theorem idx_v7_v5 (r s : Fin 8192) : idx_main_v5 (idx_main_v7 (ix2 r s)) = ix1 r :=
  funext fun a => Fin.ext (by match a with | ⟨0, _⟩ => rfl)

/-- Entry `(r, s)` of the row broadcast reads the squared norms at `s`. -/
theorem idx_v8_v6 (r s : Fin 8192) : idx_main_v6 (idx_main_v8 (ix2 r s)) = ix1 s :=
  funext fun a => Fin.ext (by match a with | ⟨0, _⟩ => rfl)

/-! ## The intermediate arrays -/

/-- The first contraction is the projected rows. -/
theorem v0_apply (x0 : (⟨S8192x768, .f32⟩ : BufTy).Contents (Elt Ideal)) (x1 : (⟨S768x128, .f32⟩ : BufTy).Contents (Elt Ideal))
    (r : Fin 8192) (k : Fin 128) :
    val_main_v0 (F := Ideal) x0 x1 (ix2 r k) = Cert.Spec.projAt x0 x1 r k := by
  rw [val_main_v0_apply]
  simp only [lidx_v0, ridx_v0]
  rfl

/-- The row sum of the squares is the squared norm of each projected row. -/
theorem v2_apply (x0 : (⟨S8192x768, .f32⟩ : BufTy).Contents (Elt Ideal)) (x1 : (⟨S768x128, .f32⟩ : BufTy).Contents (Elt Ideal))
    (r : Fin 8192) :
    val_main_v2 (F := Ideal) x0 x1 (ix1 r) = Cert.Spec.sqn (Cert.Spec.proj x0 x1) r := by
  rw [val_main_v2_apply]
  simp only [idx_v2, val_main_v1_apply, v0_apply, val_main_cst_apply, Ideal.ofBits_def, Ideal.ofBits_zero_f32,
    zero_add, Ideal.mulf_def]
  rfl

/-- The contraction of the projected rows against their transpose is the Gram matrix. -/
theorem v4_apply (x0 : (⟨S8192x768, .f32⟩ : BufTy).Contents (Elt Ideal)) (x1 : (⟨S768x128, .f32⟩ : BufTy).Contents (Elt Ideal))
    (r s : Fin 8192) :
    val_main_v4 (F := Ideal) x0 x1 (ix2 r s) = Cert.Spec.gram (Cert.Spec.proj x0 x1) r s := by
  rw [val_main_v4_apply]
  simp only [lidx_v4, ridx_v4, val_main_v3_apply, idx_v3, v0_apply]
  rfl

/-! ## The result -/

/-- The reference's result is the squared-distance matrix of the projected rows. -/
theorem ref_is_spec (x0 : (⟨S8192x768, .f32⟩ : BufTy).Contents (Elt Ideal)) (x1 : (⟨S768x128, .f32⟩ : BufTy).Contents (Elt Ideal)) :
    val_main_v12 (F := Ideal) x0 x1 = Cert.Spec.dist (Cert.Spec.proj x0 x1) := by
  funext i
  obtain ⟨r, s, rfl⟩ : ∃ (r : Fin 8192) (s : Fin 8192), i = ix2 r s := ⟨i 0, i 1, eq_ix2 i⟩
  rw [val_main_v12_apply, val_main_v9_apply, val_main_v7_apply, val_main_v5_apply, val_main_v8_apply,
    val_main_v6_apply, val_main_v11_apply, val_main_v10_apply, val_main_cst_0_apply]
  simp only [idx_v7_v5, idx_v8_v6, v2_apply, v4_apply, Ideal.subf_def, Ideal.addf_def, Ideal.mulf_def,
    Ideal.ofBits_def]
  rfl

end Cert.ReferenceIdeal.RefSpec

end
-- ==== Proof.lean ====
/-
  The certificate. Both programs compute, from the position table pe (8192 × 768) and the projection matrix w
  (768 × 128), the matrix of squared distances between the projected rows t = pe · w:
      d²[r, s] = (∑_k t[r,k]² + ∑_k t[s,k]²) − 2 · ∑_k t[r,k] · t[s,k].
  The kernel does it in two pallas_calls (t block by block, then d² block by block from two row blocks of t); the
  reference in host operations on whole arrays. Over the extended reals the kernel's changes of float format are the
  identity, its block products into a zero accumulator and its lane sums are plain finite sums, and the two sides are
  the same expression of the same sums, grouped the same way: no algebraic law and no finiteness is needed.

  Frames: each program's run terminates, faults nowhere and leaves both argument arrays as launched — for the two
  kernel programs by the run of the two calls as regions of @main (the same text at the word-level and at the ideal
  instance), for the reference by its run as a sequence of host operations. The idealization rewrote nothing, so
  there is nothing to preserve. The value claim pairs the kernel's run, whose distance matrix is read block by block
  back into one function of the arguments, with the reference's run, read operation by operation into the same one.
-/
import proofs.«178167_j44040594653319_1_alg».proof.Defs
import proofs.«178167_j44040594653319_1_alg».proof.Proof.Gen.Kernel
import proofs.«178167_j44040594653319_1_alg».proof.Proof.Gen.KernelIdeal
import proofs.«178167_j44040594653319_1_alg».proof.Proof.Gen.ReferenceIdeal
import proofs.«178167_j44040594653319_1_alg».proof.Proof.Gen.Pre_finite_inputs
import proofs.«178167_j44040594653319_1_alg».proof.Proof.KRun
import proofs.«178167_j44040594653319_1_alg».proof.Proof.KiValue
import proofs.«178167_j44040594653319_1_alg».proof.Proof.RefSpec

noncomputable section

namespace Cert.Proof

open Idealize.ShloMosaic Idealize.ShloMosaic.TcCoe Idealize.SL.Sem

/-- The word-level kernel runs to the end and keeps its arguments: the run of its two calls, the result forgotten. -/
theorem frame_kernel : Cert.frame_Kernel := fun m ρ _ =>
  (θ_run Cert.Kernel.defs _ _).mono (fun _ h c => (h c).2) (Cert.Kernel.Hand.run_main (F := Bits) m ρ)

/-- The idealized kernel likewise. -/
theorem frame_kernelIdeal : Cert.frame_KernelIdeal := fun m ρ _ =>
  (θ_run Cert.KernelIdeal.defs _ _).mono (fun _ h c => (h c).2) (Cert.KernelIdeal.Hand.run_main (F := Ideal) m ρ)

/-- The reference: its run as host operations, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the squared-distance matrix of the
    projected rows. -/
theorem algebraic : Cert.algebraic_KernelIdeal_ReferenceIdeal := by
  intro m ρ m' ρ' _ hagree
  refine ⟨fun c => Cert.Spec.dist (Cert.Spec.proj (m ((c : Thread Cert.KernelIdeal.nD Cert.KernelIdeal.τ).loc Cert.KernelIdeal.main_arg0))
      (m ((c : Thread Cert.KernelIdeal.nD Cert.KernelIdeal.τ).loc Cert.KernelIdeal.main_arg1))), ?_, ?_⟩
  · exact (θ_run Cert.KernelIdeal.defs _ _).mono
      (fun _ h c => ⟨(h c).1.trans (Cert.KernelIdeal.Val.distMat_eq m c), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v12_eq, Cert.ReferenceIdeal.RefSpec.ref_is_spec, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
